-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x8192 : Shape := ⟨3, ![4, 3, 8192]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel

variable [Facts]

def fn {F : FTy → Type} [FloatOps F] (main_arg0 : FVec F S4x3x8192 .f32) (main_arg1 : FVec F S4x3x8192 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x8192 : Shape := ⟨3, ![4, 3, 8192]⟩
abbrev S4x8192x1 : Shape := ⟨3, ![4, 8192, 1]⟩
abbrev S4x1x8192 : Shape := ⟨3, ![4, 1, 8192]⟩
abbrev S1x3x256 : Shape := ⟨3, ![1, 3, 256]⟩
abbrev S1x3x8192 : Shape := ⟨3, ![1, 3, 8192]⟩
abbrev S1x256x1 : Shape := ⟨3, ![1, 256, 1]⟩
abbrev S1x1x8192 : Shape := ⟨3, ![1, 1, 8192]⟩
abbrev S1x8192 : Shape := ⟨2, ![1, 8192]⟩
abbrev S3x256 : Shape := ⟨2, ![3, 256]⟩
abbrev S3x8192 : Shape := ⟨2, ![3, 8192]⟩
abbrev S256 : Shape := ⟨1, ![256]⟩
abbrev S1x256 : Shape := ⟨2, ![1, 256]⟩
abbrev S8192 : Shape := ⟨1, ![8192]⟩
abbrev S256x8192 : Shape := ⟨2, ![256, 8192]⟩
abbrev S256x1 : Shape := ⟨2, ![256, 1]⟩
abbrev S4x8192 : Shape := ⟨2, ![4, 8192]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192x1, .f32⟩
  | .hbm, ⟨3, _⟩ => ⟨S4x1x8192, .f32⟩
  | .hbm, ⟨4, _⟩ => ⟨S4x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x3x256, .f32⟩
  | .local _ .vmem, ⟨1, _⟩ => ⟨S1x3x256, .f32⟩
  | .local _ .vmem, ⟨2, _⟩ => ⟨S1x3x8192, .f32⟩
  | .local _ .vmem, ⟨3, _⟩ => ⟨S1x3x8192, .f32⟩
  | .local _ .vmem, ⟨4, _⟩ => ⟨S1x256x1, .f32⟩
  | .local _ .vmem, ⟨5, _⟩ => ⟨S1x256x1, .f32⟩
  | .local _ .vmem, ⟨6, _⟩ => ⟨S1x1x8192, .f32⟩
  | .local _ .vmem, ⟨7, _⟩ => ⟨S1x1x8192, .f32⟩
  | .local _ .vmem, ⟨8, _⟩ => ⟨S1x8192, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v36 : BitVec 1 := Scalar.cmpi .eq arg1 c31_i32
  let v37 : BitVec 32 := Scalar.extui v36
  let c0_i32_19 : BitVec 32 := 0#32
  let v38 : BitVec 1 := Scalar.cmpi .ne v37 c0_i32_19
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  reduces_S3x256_S256 : S3x256.Reduces [0] S256
  shapeCasts_S256_S1x256 : S256.ShapeCasts S1x256
  reduces_S3x8192_S8192 : S3x8192.Reduces [0] S8192
  shapeCasts_S8192_S1x8192 : S8192.ShapeCasts S1x8192
  transposes_S1x256_p1_0_S256x1 : S1x256.Transposes [1, 0] S256x1
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  reduces_S256x8192_S8192 : S256x8192.Reduces [0] S8192
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x8192x1_S4x8192 : S4x8192x1.ShapeCasts S4x8192
  reducesTo_S4x8192_S_d0_1 : S4x8192.ReducesTo [0, 1] S_
  h_S_ : 0 < S_.numel
  shapeCasts_S4x1x8192_S4x8192 : S4x1x8192.ShapeCasts S4x8192
  dot_S3x256_S3x8192_S256x8192_0_0_1_1_n_n_wf : DotDims.WF S3x256 S3x8192 S256x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256.size a ≤ S4x3x8192.size a
  hwx0_0 : ∀ i : grid0.Coords, EltTy.bits .f32 = 32 ∨ (Rect.block (s := S4x3x8192) S1x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S4x8192x1.size a
  hwx0_2 : ∀ i : grid0.Coords, EltTy.bits .f32 = 32 ∨ (Rect.block (s := S4x8192x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S3x256_S3x8192_S256x8192_0_0_1_1_n_n : DotDims S3x256 S3x8192 S256x8192 where
  lhsContracting := [0]
  rhsContracting := [0]
  lhsNonContracting := [1]
  rhsNonContracting := [1]
  lhsBatch := []
  rhsBatch := []
  wf := dot_S3x256_S3x8192_S256x8192_0_0_1_1_n_n_wf

abbrev win0_0 : Pipeline.Window sig grid0 :=
  Pipeline.Window.ofSpec (Memref.whole main_arg0) S1x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x3x8192 : Shape := ⟨3, ![4, 3, 8192]⟩
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192x3, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x8192x8192, .f32⟩
  | .hbm, ⟨11, _⟩ => ⟨S4x8192x1, .f32⟩
  | .hbm, ⟨12, _⟩ => ⟨S4x1x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  transposes_S4x3x8192_S4x8192x3_0_2_1 : S4x3x8192.Transposes [0, 2, 1] S4x8192x3
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Pieces.lean ====
/-
  What one grid point of the chamfer kernel leaves behind, as values.

  A grid point (b, n) sees the n-th tile of 256 points of cloud P (batch b) and the whole of cloud T (batch b). It
  writes, into its row output block, the clamped root of each tile point's least squared distance to T; and it folds,
  into a running vector carried from tile to tile, the least squared distance from each point of T to the points of
  P seen so far. Only at the last tile is the clamped root of that running vector written to the column output.

  The three kinds of point (first tile, middle tile, last tile) each leave one covering store per buffer; read back,
  each buffer holds the store's payload applied to the blocks the point loaded. Stated at any float instance.
-/
import proofs.«161672_j19181323944568_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A: the first tile of a batch row (the running minimum is reset to +∞ before it is used) -/

/-- The row output block: the clamped root of the row minima of the tile's squared distances. -/
theorem row_A (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x256x1 .f32) (h4 : a4.IsWhole) (a5 : Memref sig .tc .vmem S1x1x8192 .f32) (h5 : a5.IsWhole) (a6 : Memref sig .tc .vmem S1x8192 .f32) (h6 : a6.IsWhole) (hc0 : cond0_0 i) (hc1 : ¬cond0_1 i) (x0 : Vec F S1x3x256 .f32) (x1 : Vec F S1x3x8192 .f32) :
    out0_A_2 c i a2 h2 a3 h3 a4 h4 a5 h5 a6 h6 hc0 hc1 x0 x1 = k0_pay5 x0 x1 := by
  unfold out0_A_2
  rw [View.read_writes_eq_canon _ _ _ (cover0_A_2 c i a2 h2 a3 h3 a4 h4 a5 h5 a6 h6 hc0 hc1 x0 x1)]
  unfold kernelRun0_A
  dsimp only
  sl_unfold_words
  rw [View.canon_unit_zero hz3]
  simp only [View.readAt_eq_ld, h2.read_unread, h3.read_unread, h6.read_unread, View.ld_unit_zero (S := S1x3x256) hz3,
    View.ld_unit_zero (S := S1x3x8192) hz3, View.ld_unit_zero (S := S1x8192) hz2, View.readCov_unit_zero (S := S1x8192) _ hz2]

/-- The running column minimum after the point: the earlier one (+∞ here) joined with the tile's column minima. -/
theorem acc_A (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x256x1 .f32) (h4 : a4.IsWhole) (a5 : Memref sig .tc .vmem S1x1x8192 .f32) (h5 : a5.IsWhole) (a6 : Memref sig .tc .vmem S1x8192 .f32) (h6 : a6.IsWhole) (hc0 : cond0_0 i) (hc1 : ¬cond0_1 i) (x0 : Vec F S1x3x256 .f32) (x1 : Vec F S1x3x8192 .f32) :
    sout0_A_0 c i a2 h2 a3 h3 a4 h4 a5 h5 a6 h6 hc0 hc1 x0 x1 = k0_pay1 (k0_pay6 x0 x1 k0_pay3) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S1x8192) hz2]
  simp only [View.readAt_eq_ld, h2.read_unread, h3.read_unread, h6.read_unread, View.ld_unit_zero (S := S1x3x256) hz3,
    View.ld_unit_zero (S := S1x3x8192) hz3, View.ld_unit_zero (S := S1x8192) hz2, View.readCov_unit_zero (S := S1x8192) _ hz2]

/-! ## B: a middle tile (the running minimum is carried in) -/

/-- The row output block: the clamped root of the row minima of the tile's squared distances. -/
theorem row_B (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x256x1 .f32) (h4 : a4.IsWhole) (a5 : Memref sig .tc .vmem S1x1x8192 .f32) (h5 : a5.IsWhole) (a6 : Memref sig .tc .vmem S1x8192 .f32) (h6 : a6.IsWhole) (hc0 : ¬cond0_0 i) (hc1 : ¬cond0_1 i) (x0 : Vec F S1x3x256 .f32) (x1 : Vec F S1x3x8192 .f32) (xs : Vec F S1x8192 .f32) :
    out0_B_2 c i a2 h2 a3 h3 a4 h4 a5 h5 a6 h6 hc0 hc1 x0 x1 xs = k0_pay5 x0 x1 := by
  unfold out0_B_2
  rw [View.read_writes_eq_canon _ _ _ (cover0_B_2 c i a2 h2 a3 h3 a4 h4 a5 h5 a6 h6 hc0 hc1 x0 x1 xs)]
  unfold kernelRun0_B
  dsimp only
  sl_unfold_words
  rw [View.canon_unit_zero hz3]
  simp only [View.readAt_eq_ld, h2.read_unread, h3.read_unread, h6.read_unread, View.ld_unit_zero (S := S1x3x256) hz3,
    View.ld_unit_zero (S := S1x3x8192) hz3, View.ld_unit_zero (S := S1x8192) hz2, View.readCov_unit_zero (S := S1x8192) _ hz2]

/-- The running column minimum after the point: the earlier one (carried in) joined with the tile's column minima. -/
theorem acc_B (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x256x1 .f32) (h4 : a4.IsWhole) (a5 : Memref sig .tc .vmem S1x1x8192 .f32) (h5 : a5.IsWhole) (a6 : Memref sig .tc .vmem S1x8192 .f32) (h6 : a6.IsWhole) (hc0 : ¬cond0_0 i) (hc1 : ¬cond0_1 i) (x0 : Vec F S1x3x256 .f32) (x1 : Vec F S1x3x8192 .f32) (xs : Vec F S1x8192 .f32) :
    sout0_B_0 c i a2 h2 a3 h3 a4 h4 a5 h5 a6 h6 hc0 hc1 x0 x1 xs = k0_pay1 (k0_pay6 x0 x1 xs) := by
  unfold sout0_B_0
  rw [View.read_writes_eq_canon _ _ _ (scover0_B_0 c i a2 h2 a3 h3 a4 h4 a5 h5 a6 h6 hc0 hc1 x0 x1 xs)]
  unfold kernelRun0_B
  dsimp only
  sl_unfold_words
  rw [View.canon_unit_zero hz2]
  simp only [View.readAt_eq_ld, h2.read_unread, h3.read_unread, h6.read_unread, View.ld_unit_zero (S := S1x3x256) hz3,
    View.ld_unit_zero (S := S1x3x8192) hz3, View.ld_unit_zero (S := S1x8192) hz2, View.readCov_unit_zero (S := S1x8192) _ hz2]

/-! ## C: the last tile of a batch row (the running minimum is carried in and then written out) -/

/-- The row output block: the clamped root of the row minima of the tile's squared distances. -/
theorem row_C (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x256x1 .f32) (h4 : a4.IsWhole) (a5 : Memref sig .tc .vmem S1x1x8192 .f32) (h5 : a5.IsWhole) (a6 : Memref sig .tc .vmem S1x8192 .f32) (h6 : a6.IsWhole) (hc0 : ¬cond0_0 i) (hc1 : cond0_1 i) (x0 : Vec F S1x3x256 .f32) (x1 : Vec F S1x3x8192 .f32) (xs : Vec F S1x8192 .f32) :
    out0_C_2 c i a2 h2 a3 h3 a4 h4 a5 h5 a6 h6 hc0 hc1 x0 x1 xs = k0_pay5 x0 x1 := by
  unfold out0_C_2
  rw [View.read_writes_eq_canon _ _ _ (cover0_C_2 c i a2 h2 a3 h3 a4 h4 a5 h5 a6 h6 hc0 hc1 x0 x1 xs)]
  unfold kernelRun0_C
  dsimp only
  sl_unfold_words
  rw [View.canon_unit_zero hz3]
  simp only [View.readAt_eq_ld, h2.read_unread, h3.read_unread, h6.read_unread, View.ld_unit_zero (S := S1x3x256) hz3,
    View.ld_unit_zero (S := S1x3x8192) hz3, View.ld_unit_zero (S := S1x8192) hz2, View.readCov_unit_zero (S := S1x8192) _ hz2]

/-- The running column minimum after the point: the earlier one (carried in) joined with the tile's column minima. -/
theorem acc_C (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x256x1 .f32) (h4 : a4.IsWhole) (a5 : Memref sig .tc .vmem S1x1x8192 .f32) (h5 : a5.IsWhole) (a6 : Memref sig .tc .vmem S1x8192 .f32) (h6 : a6.IsWhole) (hc0 : ¬cond0_0 i) (hc1 : cond0_1 i) (x0 : Vec F S1x3x256 .f32) (x1 : Vec F S1x3x8192 .f32) (xs : Vec F S1x8192 .f32) :
    sout0_C_0 c i a2 h2 a3 h3 a4 h4 a5 h5 a6 h6 hc0 hc1 x0 x1 xs = k0_pay1 (k0_pay6 x0 x1 xs) := by
  unfold sout0_C_0
  rw [View.read_writes_eq_canon _ _ _ (scover0_C_0 c i a2 h2 a3 h3 a4 h4 a5 h5 a6 h6 hc0 hc1 x0 x1 xs)]
  unfold kernelRun0_C
  dsimp only
  sl_unfold_words
  rw [View.canon_unit_zero hz2]
  simp only [View.readAt_eq_ld, h2.read_unread, h3.read_unread, h6.read_unread, View.ld_unit_zero (S := S1x3x256) hz3,
    View.ld_unit_zero (S := S1x3x8192) hz3, View.ld_unit_zero (S := S1x8192) hz2, View.readCov_unit_zero (S := S1x8192) _ hz2]

/-- The column output block, written at the last tile only: the clamped root of the finished running minimum. -/
theorem col_C (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x256x1 .f32) (h4 : a4.IsWhole) (a5 : Memref sig .tc .vmem S1x1x8192 .f32) (h5 : a5.IsWhole) (a6 : Memref sig .tc .vmem S1x8192 .f32) (h6 : a6.IsWhole) (hc0 : ¬cond0_0 i) (hc1 : cond0_1 i) (x0 : Vec F S1x3x256 .f32) (x1 : Vec F S1x3x8192 .f32) (xs : Vec F S1x8192 .f32) :
    out0_C_3 c i a2 h2 a3 h3 a4 h4 a5 h5 a6 h6 hc0 hc1 x0 x1 xs = k0_pay2 (k0_pay1 (k0_pay6 x0 x1 xs)) := by
  unfold out0_C_3
  rw [View.read_writes_eq_canon _ _ _ (cover0_C_3 c i a2 h2 a3 h3 a4 h4 a5 h5 a6 h6 hc0 hc1 x0 x1 xs)]
  unfold kernelRun0_C
  dsimp only
  sl_unfold_words
  rw [View.canon_unit_zero hz3]
  simp only [View.readAt_eq_ld, h2.read_unread, h3.read_unread, h6.read_unread, View.ld_unit_zero (S := S1x3x256) hz3,
    View.ld_unit_zero (S := S1x3x8192) hz3, View.ld_unit_zero (S := S1x8192) hz2, View.readCov_unit_zero (S := S1x8192) _ hz2]

end Cert.KernelIdeal.Pieces

end
-- ==== Proof.LibMinFold.lean ====
/-
  Minima over finite families of extended reals, and a monotone map through them.

  * The f32 pattern of +∞ denotes the top element, so a minimum folded from it is the infimum of the family.
  * The ideal square root is monotone on all of the extended reals (its junk value below zero is the bottom element),
    so "clamp at zero, then take the root" is monotone and fixes the top element; a monotone map that fixes the top
    commutes with a minimum folded from the top: f (min_i g i) = min_i f (g i).
  * A running minimum over the rows below `a`, joined with the minimum over the next `w` rows, is the running minimum
    over the rows below `a + w`: how a minimum accumulated tile by tile becomes the minimum over the whole axis.
  * A vector `multi_reduction <minimumf>` over one axis, and the host's `reduce` with a minimum body over one axis,
    both from +∞, read at an index as that fold over the axis's coordinates.
-/
import Idealize.ShloMosaic.PureOps.Ideal
import Idealize.ShloMosaic.PureOps.Ideal.Laws
import Idealize.ShloMosaic.PureOps.Reduce

noncomputable section

namespace Cert.MinFold

open Idealize.ShloMosaic

/-- The f32 pattern `0x7F800000` is +∞: the top extended real. -/
theorem ofBits_pinf : Ideal.ofBits .f32 0x7F800000#32 = (⊤ : EReal) := by
  simp [Ideal.ofBits, Ideal.ieee]

/-- The ideal square root is monotone: ⊥ below zero, the real root from zero on, ⊤ at ⊤. -/
theorem sqrt_mono : Monotone Ideal.sqrt := by
  intro x y h
  induction x using EReal.rec with
  | bot => rw [Ideal.sqrt_bot]; exact bot_le
  | top => rw [top_le_iff.mp h]
  | coe r =>
    induction y using EReal.rec with
    | bot => exact absurd h (by simp)
    | top => rw [Ideal.sqrt_top]; exact le_top
    | coe s =>
      have hrs : r ≤ s := EReal.coe_le_coe_iff.mp h
      rw [Ideal.sqrt_coe, Ideal.sqrt_coe]
      by_cases h1 : r < 0
      · rw [if_pos h1]; exact bot_le
      · have h2 : ¬ s < 0 := fun hs => h1 (lt_of_le_of_lt hrs hs)
        rw [if_neg h1, if_neg h2]
        exact EReal.coe_le_coe_iff.mpr (Real.sqrt_le_sqrt hrs)

/-- Clamp below at `z`, then take the root: the distance from a squared distance. -/
def root (z x : EReal) : EReal := Ideal.sqrt (max x z)

theorem root_mono (z : EReal) : Monotone (root z) := fun _ _ h => sqrt_mono (max_le_max h le_rfl)

theorem root_top (z : EReal) : root z ⊤ = ⊤ := by
  unfold root; rw [max_eq_left le_top, Ideal.sqrt_top]

/-- A monotone map that fixes the top commutes with a minimum folded from the top. -/
theorem map_fold_min {ι : Type*} (f : EReal → EReal) (hf : Monotone f) (htop : f ⊤ = ⊤) (s : Finset ι) (g : ι → EReal) :
    f (s.fold min ⊤ g) = s.fold min ⊤ (fun i => f (g i)) := by
  have h := Finset.fold_hom (op := min) (op' := min) (m := f) (s := s) (b := (⊤ : EReal)) (f := g) (fun x y => hf.map_min)
  rw [htop] at h
  exact h.symm

/-- The running minimum over the rows below `a`, joined with the minimum over the next `w` rows, is the running minimum
    over the rows below `a + w`. -/
theorem fold_min_below_add {N : ℕ} (g : Fin N → EReal) (a w : ℕ) (h : a + w ≤ N) :
    min ((Finset.univ.filter fun r : Fin N => r.val < a).fold min ⊤ g)
        ((Finset.univ : Finset (Fin w)).fold min ⊤ fun k => g ⟨a + k.val, by have := k.isLt; omega⟩)
      = (Finset.univ.filter fun r : Fin N => r.val < a + w).fold min ⊤ g := by
  refine eq_of_forall_le_iff fun c => ?_
  rw [le_min_iff, Finset.le_fold_min, Finset.le_fold_min, Finset.le_fold_min]
  constructor
  · rintro ⟨⟨-, h1⟩, -, h2⟩
    refine ⟨le_top, fun r hr => ?_⟩
    have hr' : r.val < a + w := (Finset.mem_filter.mp hr).2
    by_cases hra : r.val < a
    · exact h1 r (Finset.mem_filter.mpr ⟨Finset.mem_univ _, hra⟩)
    · have h3 := h2 ⟨r.val - a, by omega⟩ (Finset.mem_univ _)
      have e : (⟨a + (r.val - a), by omega⟩ : Fin N) = r := Fin.ext (by show a + (r.val - a) = r.val; omega)
      rw [e] at h3
      exact h3
  · rintro ⟨-, h3⟩
    refine ⟨⟨le_top, fun r hr => h3 r (Finset.mem_filter.mpr ⟨Finset.mem_univ _, ?_⟩)⟩, le_top, fun k _ =>
      h3 _ (Finset.mem_filter.mpr ⟨Finset.mem_univ _, ?_⟩)⟩
    · have := (Finset.mem_filter.mp hr).2; omega
    · show a + k.val < a + w; have := k.isLt; omega

/-- Below no row the running minimum is the top. -/
theorem fold_min_below_zero {N : ℕ} (g : Fin N → EReal) :
    (Finset.univ.filter fun r : Fin N => r.val < 0).fold min ⊤ g = ⊤ := by
  rw [Finset.filter_false_of_mem (fun r _ => Nat.not_lt_zero _)]
  rfl

/-- Below every row it is the minimum over the whole axis. -/
theorem fold_min_below_all {N : ℕ} (g : Fin N → EReal) :
    (Finset.univ.filter fun r : Fin N => r.val < N).fold min ⊤ g = Finset.univ.fold min ⊤ g := by
  rw [Finset.filter_true_of_mem (fun r _ => r.isLt)]

/-- A vector `multi_reduction <minimumf>` from +∞ over one axis, read at the ideal values: the minimum over that axis's
    coordinates. -/
theorem multiReduction_minimumf_single {s t : Shape} {a : Fin s.rank} (src : FVec Ideal s .f32)
    (h : s.Reduces [a] t) (hφ : FKind.Formats .f32) (hacc : (0x7F800000#32 : BitVec 32) = FKind.minimumf.neutral .f32 hφ) (j : t.Idx) :
    multiReduction .minimumf [a] t src 0x7F800000#32 h hφ hacc j
      = (Finset.univ : Finset (Fin (s.size a))).fold min ⊤ (fun k => src (h.lift j k)) := by
  rw [multiReduction_minimumf_eq_fold, h.fold_filter_drop_single _ _ src j]
  show Finset.fold min (Ideal.ofBits .f32 0x7F800000#32) _ _ = _
  rw [ofBits_pinf]
  rfl

/-- The host's `reduce` with a minimum body from +∞ over one axis, read at the ideal values: the same minimum. -/
theorem hostReduce_minimumf_single {s t : Shape} {a : Fin s.rank} (x : FVec Ideal s .f32)
    (h' : s.ReducesTo [a] t) (h : s.Reduces [a] t) (hu : 0 < (⟨0, ![]⟩ : Shape).numel) (j : t.Idx) :
    Host.reduce FloatOps.minimumf x (constant (⟨0, ![]⟩ : Shape) .f32 0x7F800000#32) h' hu j
      = (Finset.univ : Finset (Fin (s.size a))).fold min ⊤ (fun k => x (h.lift j k)) := by
  rw [Host.reduce_eq_fold_single FloatOps.minimumf x _ h' h hu]
  show Finset.fold min (Ideal.ofBits .f32 0x7F800000#32) _ _ = _
  rw [ofBits_pinf]
  rfl

end Cert.MinFold

end
-- ==== Proof.Distances.lean ====
/-
  The chamfer distance of two clouds of 8192 points in space, four batches, as one function of the two argument
  arrays (each f32[4, 3, 8192], coordinate-major).

  For points p, q the squared distance is spelt |p|² + |q|² − 2 p·q (three-term sums), the distance is its clamp
  at zero, rooted. `nearestT b r` is the least distance from point r of P to the points of T; `nearestP b m` the
  least distance from point m of T to the points of P; the result is the mean of the first over (b, r) plus the
  mean of the second over (b, m).

  A program may take the minimum of the SQUARED distances first and clamp and root once: the clamped root is
  monotone and fixes +∞, so it commutes with the minimum. And it may take the minimum over P tile by tile.
-/
import proofs.«161672_j19181323944568_1_alg».proof.Proof.LibMinFold
import Idealize.ShloMosaic.Lib.ValueIdx
import Idealize.ShloMosaic.PureOps.Vector

noncomputable section

open Idealize.ShloMosaic Idealize.ShloMosaic.TcCoe Idealize.SL.Sem

namespace Cert.Chamfer

open Idealize.ShloMosaic Idealize.ShloMosaic.ValueIdx Cert.MinFold

/-- The f32 words 0.0 and 2.0 as both programs carry them (never evaluated: the same word on both sides). -/
abbrev zeroW : EReal := Ideal.ofBits .f32 0x00000000#32
abbrev twoW : EReal := Ideal.ofBits .f32 0x40000000#32

/-- |p|² + |q|² − 2 p·q. -/
def sqDist (p q : Fin 3 → EReal) : EReal :=
  ((∑ c : Fin 3, p c * p c) + (∑ c : Fin 3, q c * q c)) - twoW * (∑ c : Fin 3, p c * q c)

/-- The distance: the squared distance clamped at zero, rooted. -/
def dist (p q : Fin 3 → EReal) : EReal := root zeroW (sqDist p q)

/-- A cloud array: batch, coordinate, point. -/
abbrev Cloud : Type := (⟨3, ![4, 3, 8192]⟩ : Shape).Idx → EReal

/-- Point `r` of batch `b`. -/
def pt (X : Cloud) (b : Fin 4) (r : Fin 8192) : Fin 3 → EReal := fun c => X (ix3 b c r)

/-- The least distance from point `r` of P to the points of T. -/
def nearestT (P T : Cloud) (b : Fin 4) (r : Fin 8192) : EReal :=
  (Finset.univ : Finset (Fin 8192)).fold min ⊤ fun m => dist (pt P b r) (pt T b m)

/-- The least distance from point `m` of T to the points of P. -/
def nearestP (P T : Cloud) (b : Fin 4) (m : Fin 8192) : EReal :=
  (Finset.univ : Finset (Fin 8192)).fold min ⊤ fun r => dist (pt P b r) (pt T b m)

/-- The least SQUARED distance from point `m` of T to the points of P below row `n`. -/
def sqBelow (P T : Cloud) (b : Fin 4) (m : Fin 8192) (n : ℕ) : EReal :=
  (Finset.univ.filter fun r : Fin 8192 => r.val < n).fold min ⊤ fun r => sqDist (pt P b r) (pt T b m)

/-- Clamping and rooting the least squared distance gives the least distance. -/
theorem root_min_sq_eq_nearestT (P T : Cloud) (b : Fin 4) (r : Fin 8192) :
    root zeroW ((Finset.univ : Finset (Fin 8192)).fold min ⊤ fun m => sqDist (pt P b r) (pt T b m)) = nearestT P T b r :=
  map_fold_min (root zeroW) (root_mono zeroW) (root_top zeroW) _ _

theorem sqBelow_zero (P T : Cloud) (b : Fin 4) (m : Fin 8192) : sqBelow P T b m 0 = ⊤ := fold_min_below_zero _

/-- One more tile of 256 points of P. -/
theorem sqBelow_tile (P T : Cloud) (b : Fin 4) (m : Fin 8192) (n : ℕ) (hn : 256 * n + 256 ≤ 8192) :
    min (sqBelow P T b m (256 * n))
        ((Finset.univ : Finset (Fin 256)).fold min ⊤ fun k => sqDist (pt P b ⟨256 * n + k.val, by have := k.isLt; omega⟩) (pt T b m))
      = sqBelow P T b m (256 * n + 256) :=
  fold_min_below_add (fun r => sqDist (pt P b r) (pt T b m)) (256 * n) 256 hn

/-- After the last tile, clamped and rooted: the least distance. -/
theorem root_sqBelow_all (P T : Cloud) (b : Fin 4) (m : Fin 8192) : root zeroW (sqBelow P T b m 8192) = nearestP P T b m := by
  unfold sqBelow
  rw [fold_min_below_all]
  exact map_fold_min (root zeroW) (root_mono zeroW) (root_top zeroW) _ _

/-- The two means and their sum, over the two [4, 8192] arrays of least distances: the tail both programs end with. -/
def meanSum (h : (⟨2, ![4, 8192]⟩ : Shape).ReducesTo [0, 1] ⟨0, ![]⟩) (hu : 0 < (⟨0, ![]⟩ : Shape).numel)
    (R C : FVec Ideal ⟨2, ![4, 8192]⟩ .f32) : FVec Ideal ⟨0, ![]⟩ .f32 :=
  addf (Host.divf (F := Ideal) (Host.reduceAdd (F := Ideal) R (constant (F := Ideal) ⟨0, ![]⟩ .f32 0x00000000#32) h hu) (constant (F := Ideal) ⟨0, ![]⟩ .f32 0x47000000#32))
    (Host.divf (F := Ideal) (Host.reduceAdd (F := Ideal) C (constant (F := Ideal) ⟨0, ![]⟩ .f32 0x00000000#32) h hu) (constant (F := Ideal) ⟨0, ![]⟩ .f32 0x47000000#32))

/-- The [4, 8192] array of least distances from P's points, and from T's. -/
def rowsOf (P T : Cloud) : FVec Ideal ⟨2, ![4, 8192]⟩ .f32 := fun j => nearestT P T ⟨(j 0).val, (j 0).isLt⟩ ⟨(j 1).val, (j 1).isLt⟩
def colsOf (P T : Cloud) : FVec Ideal ⟨2, ![4, 8192]⟩ .f32 := fun j => nearestP P T ⟨(j 0).val, (j 0).isLt⟩ ⟨(j 1).val, (j 1).isLt⟩

end Cert.Chamfer

end
-- ==== Proof.Payload.lean ====
/-
  The kernel body's arithmetic at the ideal values, read index by index.

  With a tile x0 of 256 points of P and the block x1 of all 8192 points of T (both coordinate-major, one leading unit
  axis), the body forms the 256 × 8192 matrix of squared distances, entry (k, m) = |x0ₖ|² + |x1ₘ|² − 2 x0ₖ·x1ₘ
  (the norms by a three-term lane sum each, the cross term by a matrix product contracting the coordinate axis), and
  from it: the row minima, clamped and rooted (the row output); the column minima joined with the running minimum
  (the carried vector); and, of a running minimum, its clamp and root (the column output).
-/
import proofs.«161672_j19181323944568_1_alg».proof.Proof.Gen.KernelIdeal.Skeleton
import proofs.«161672_j19181323944568_1_alg».proof.Proof.Distances
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx Cert.MinFold Cert.Chamfer

/-! ## Layout operations of the body, read at an index -/

variable {α : Type}

/-- A column `[a, 1]` broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Reducing the rows of `[a, b]`: the reduced index `q` with row `p` put back is `(p, q)`. -/
theorem lift_rows {a b : ℕ} (h : (⟨2, ![a, b]⟩ : Shape).Reduces [0] ⟨1, ![b]⟩) (q : Fin b)
    (p : Fin ((⟨2, ![a, b]⟩ : Shape).size 0)) : h.lift (ix1 q) p = ix2 (⟨p.val, p.isLt⟩ : Fin a) q := by
  funext c; apply Fin.ext
  fin_cases c <;> rfl

/-- Reducing the columns of `[a, b]`: the reduced index `p` with column `q` put back is `(p, q)`. -/
theorem lift_cols {a b : ℕ} (h : (⟨2, ![a, b]⟩ : Shape).Reduces [1] ⟨1, ![a]⟩) (p : Fin a)
    (q : Fin ((⟨2, ![a, b]⟩ : Shape).size 1)) : h.lift (ix1 p) q = ix2 p (⟨q.val, q.isLt⟩ : Fin b) := by
  funext c; apply Fin.ext
  fin_cases c <;> rfl

/-- A vector square root read at an index. -/
theorem sqrt_apply' {s : Shape} {φ : FTy} (a : FVec Ideal s φ) (i : s.Idx) : Idealize.ShloMosaic.sqrt a i = Ideal.sqrt (a i) := rfl

/-! ## The squared norms and the cross term -/

/-- The lane sum of the squares of a coordinate-major block `[1, 3, n]`, cast to `[3, n]`: at point `k`, |xₖ|². -/
theorem sumSq_apply {n : ℕ} (x : FVec Ideal ⟨3, ![1, 3, n]⟩ .f32) (hc : (⟨3, ![1, 3, n]⟩ : Shape).ShapeCasts ⟨2, ![3, n]⟩)
    (hr : (⟨2, ![3, n]⟩ : Shape).Reduces [0] ⟨1, ![n]⟩) (hφ : FKind.Formats .f32)
    (hacc : (0x00000000#32 : BitVec 32) = FKind.add.neutral .f32 hφ) (k : Fin n) :
    multiReduction (F := Ideal) .add [0] ⟨1, ![n]⟩ (mulf (shapeCast ⟨2, ![3, n]⟩ x hc) (shapeCast ⟨2, ![3, n]⟩ x hc)) 0x00000000#32 hr hφ hacc (ix1 k)
      = ∑ c : Fin 3, x (ix3 (0 : Fin 1) c k) * x (ix3 (0 : Fin 1) c k) := by
  refine (Ideal.multiReduction_add_single _ _ hr hφ hacc (ix1 k)).trans ?_
  refine Finset.sum_congr rfl fun c _ => ?_
  rw [lift_rows hr k c]
  show shapeCast ⟨2, ![3, n]⟩ x hc (ix2 _ k) * shapeCast ⟨2, ![3, n]⟩ x hc (ix2 _ k) = _
  rw [shapeCast_1ab_ab_apply x hc _ k]
  rfl

theorem lhs_D_0 (i : S256x8192.Idx) (q : dot_S3x256_S3x8192_S256x8192_0_0_1_1_n_n.contr.Idx) :
    (dot_S3x256_S3x8192_S256x8192_0_0_1_1_n_n.lhsIdx i q 0).val = (q ⟨0, by decide⟩).val :=
  dot_S3x256_S3x8192_S256x8192_0_0_1_1_n_n.lhsIdx_val_of_single rfl i q
theorem lhs_D_1 (i : S256x8192.Idx) (q : dot_S3x256_S3x8192_S256x8192_0_0_1_1_n_n.contr.Idx) :
    (dot_S3x256_S3x8192_S256x8192_0_0_1_1_n_n.lhsIdx i q 1).val = (i 0).val := by
  unfold DotDims.lhsIdx
  rw [dif_neg (show ¬(1 : Fin S3x256.rank) ∈ dot_S3x256_S3x8192_S256x8192_0_0_1_1_n_n.lhsBatch by decide), dif_pos (show (1 : Fin S3x256.rank) ∈ dot_S3x256_S3x8192_S256x8192_0_0_1_1_n_n.lhsNonContracting by decide)]
  rfl
theorem rhs_D_0 (i : S256x8192.Idx) (q : dot_S3x256_S3x8192_S256x8192_0_0_1_1_n_n.contr.Idx) :
    (dot_S3x256_S3x8192_S256x8192_0_0_1_1_n_n.rhsIdx i q 0).val = (q ⟨0, by decide⟩).val :=
  dot_S3x256_S3x8192_S256x8192_0_0_1_1_n_n.rhsIdx_val_of_single rfl i q
theorem rhs_D_1 (i : S256x8192.Idx) (q : dot_S3x256_S3x8192_S256x8192_0_0_1_1_n_n.contr.Idx) :
    (dot_S3x256_S3x8192_S256x8192_0_0_1_1_n_n.rhsIdx i q 1).val = (i 1).val := by
  unfold DotDims.rhsIdx
  rw [dif_neg (show ¬(1 : Fin S3x8192.rank) ∈ dot_S3x256_S3x8192_S256x8192_0_0_1_1_n_n.rhsBatch by decide), dif_pos (show (1 : Fin S3x8192.rank) ∈ dot_S3x256_S3x8192_S256x8192_0_0_1_1_n_n.rhsNonContracting by decide)]
  rfl

/-- The matrix product contracting the coordinate axis: at (k, m), x0ₖ · x1ₘ. -/
theorem cross_apply (v4 : FVec Ideal S3x256 .f32) (v6 : FVec Ideal S3x8192 .f32) (k : Fin 256) (mm : Fin 8192) :
    matmul dot_S3x256_S3x8192_S256x8192_0_0_1_1_n_n none v4 v6 (constant S256x8192 .f32 0x00000000#32) (ix2 k mm)
      = ∑ c : Fin 3, v4 (ix2 c k) * v6 (ix2 c mm) := by
  simp only [matmul]
  rw [Ideal.matmul_constant_zero_apply, ← Equiv.sum_comp (ValueIdx.contrEquiv1 dot_S3x256_S3x8192_S256x8192_0_0_1_1_n_n 3 rfl rfl).symm]
  refine Finset.sum_congr rfl fun c _ => ?_
  have hk := ValueIdx.contrEquiv1_symm_val dot_S3x256_S3x8192_S256x8192_0_0_1_1_n_n 3 rfl rfl c
  have el : dot_S3x256_S3x8192_S256x8192_0_0_1_1_n_n.lhsIdx (ix2 k mm) ((ValueIdx.contrEquiv1 dot_S3x256_S3x8192_S256x8192_0_0_1_1_n_n 3 rfl rfl).symm c) = ix2 c k := funext fun a => Fin.ext (by
    match a with
    | ⟨0, _⟩ => exact (lhs_D_0 _ _).trans hk
    | ⟨1, _⟩ => exact lhs_D_1 _ _)
  have er : dot_S3x256_S3x8192_S256x8192_0_0_1_1_n_n.rhsIdx (ix2 k mm) ((ValueIdx.contrEquiv1 dot_S3x256_S3x8192_S256x8192_0_0_1_1_n_n 3 rfl rfl).symm c) = ix2 c mm := funext fun a => Fin.ext (by
    match a with
    | ⟨0, _⟩ => exact (rhs_D_0 _ _).trans hk
    | ⟨1, _⟩ => exact rhs_D_1 _ _)
  rw [el, er]

/-! ## The payloads -/

/-- Point `k` of a coordinate-major block `[1, 3, n]`. -/
def blkPt {n : ℕ} (x : Vec Ideal ⟨3, ![1, 3, n]⟩ .f32) (k : Fin n) : Fin 3 → EReal := fun c => x (ix3 (0 : Fin 1) c k)

/-- The matrix of squared distances between the tile's points and T's. -/
theorem sq_apply (x0 : Vec Ideal S1x3x256 .f32) (x1 : Vec Ideal S1x3x8192 .f32) (k : Fin 256) (mm : Fin 8192) :
    k0_pay4 (F := Ideal) x0 x1 (ix2 k mm) = sqDist (blkPt x0 k) (blkPt x1 mm) := by
  unfold k0_pay4 sqDist blkPt
  refine (subf_apply _ _ _).trans (congrArg₂ (fun a b : EReal => a - b) ((addf_apply _ _ _).trans (congrArg₂ (fun a b : EReal => a + b) ?_ ?_))
    ((mulf_apply _ _ _).trans (congrArg (fun a : EReal => twoW * a) ?_)))
  · refine (broadcastTo_a1_ab_apply _ _ k mm).trans ?_
    refine (transpose_ix2_apply _ _ k (0 : Fin 1)).trans ?_
    refine (shapeCast_a_1a_apply _ _ (0 : Fin 1) k).trans ?_
    exact sumSq_apply x0 _ _ _ _ k
  · refine (broadcastTo_1b_ab_apply _ _ k mm).trans ?_
    refine (shapeCast_a_1a_apply _ _ (0 : Fin 1) mm).trans ?_
    exact sumSq_apply x1 _ _ _ _ mm
  · refine (cross_apply _ _ k mm).trans ?_
    refine Finset.sum_congr rfl fun c _ => ?_
    rw [shapeCast_1ab_ab_apply x0 _ c k, shapeCast_1ab_ab_apply x1 _ c mm]

/-- The row output block: at tile point `k`, the clamped root of its least squared distance to T's points. -/
theorem rowOut_apply (x0 : Vec Ideal S1x3x256 .f32) (x1 : Vec Ideal S1x3x8192 .f32) (k : Fin 256) :
    k0_pay5 (F := Ideal) x0 x1 (ix3 (0 : Fin 1) k (0 : Fin 1))
      = root zeroW ((Finset.univ : Finset (Fin 8192)).fold min ⊤ fun mm => sqDist (blkPt x0 k) (blkPt x1 mm)) := by
  unfold k0_pay5 root
  refine (shapeCast_ab_1ab_apply _ _ (0 : Fin 1) k (0 : Fin 1)).trans ?_
  refine (sqrt_apply' _ _).trans (congrArg Ideal.sqrt ?_)
  refine (maximumf_apply _ _ _).trans (congrArg (fun a : EReal => max a zeroW) ?_)
  refine (shapeCast_a_a1_apply _ _ k (0 : Fin 1)).trans ?_
  refine (multiReduction_minimumf_single _ _ _ _ (ix1 k)).trans ?_
  refine congrArg (fun g => Finset.fold min ⊤ g Finset.univ) (funext fun mm => ?_)
  rw [lift_cols _ k mm]
  exact sq_apply x0 x1 k _

/-- The carried vector after the point: at T's point `mm`, the earlier value joined with the least squared distance to
    the tile's points. -/
theorem acc_apply (x0 : Vec Ideal S1x3x256 .f32) (x1 : Vec Ideal S1x3x8192 .f32) (v : Vec Ideal S1x8192 .f32) (mm : Fin 8192) :
    k0_pay1 (F := Ideal) (k0_pay6 (F := Ideal) x0 x1 v) (ix2 (0 : Fin 1) mm)
      = min (v (ix2 (0 : Fin 1) mm)) ((Finset.univ : Finset (Fin 256)).fold min ⊤ fun k => sqDist (blkPt x0 k) (blkPt x1 mm)) := by
  unfold k0_pay1
  rw [shapeCast_self]
  unfold k0_pay6
  refine (minimumf_apply _ _ _).trans (congrArg (fun a : EReal => min (v (ix2 (0 : Fin 1) mm)) a) ?_)
  refine (shapeCast_a_1a_apply _ _ (0 : Fin 1) mm).trans ?_
  refine (multiReduction_minimumf_single _ _ _ _ (ix1 mm)).trans ?_
  refine congrArg (fun g => Finset.fold min ⊤ g Finset.univ) (funext fun k => ?_)
  rw [lift_rows _ mm k]
  exact sq_apply x0 x1 _ mm

/-- The reset value of the carried vector: +∞ everywhere. -/
theorem reset_apply (j : S1x8192.Idx) : k0_pay3 (F := Ideal) j = ⊤ := by
  unfold k0_pay3
  rw [shapeCast_self]
  exact ofBits_pinf

/-- The column output block: the clamped root of the carried vector. -/
theorem colOut_apply (v : Vec Ideal S1x8192 .f32) (mm : Fin 8192) :
    k0_pay2 (F := Ideal) v (ix3 (0 : Fin 1) (0 : Fin 1) mm) = root zeroW (v (ix2 (0 : Fin 1) mm)) := by
  unfold k0_pay2 root
  refine (shapeCast_ab_1ab_apply _ _ (0 : Fin 1) (0 : Fin 1) mm).trans ?_
  refine (sqrt_apply' _ _).trans (congrArg Ideal.sqrt ?_)
  exact maximumf_apply _ _ _

end Cert.KernelIdeal.Payload

end
-- ==== Proof.KernelValue.lean ====
/-
  What the kernel's two result arrays hold after the run, at the ideal values.

  The grid is 4 batches × 32 tiles; point t is batch t / 32, tile t % 32. Its P block is rows 256·(t % 32) … +255 of
  batch t / 32, its T block all of that batch's T.

  * Row output [4, 8192, 1]: every point writes back its own 256 rows; entry (b, r, 0) ends at `nearestT b r` (the
    clamped root of the least squared distance is the least distance: the clamped root is monotone).
  * The carried vector after point t holds, at m, the least squared distance from T's point m to P's rows below
    256·(t % 32 + 1) of batch t / 32: by induction on the point (the first tile of a batch starts from +∞, every other
    tile joins its 256 rows to what the point before left).
  * Column output [4, 1, 8192]: only the last tile of a batch writes back, the clamped root of the finished vector;
    entry (b, 0, m) ends at `nearestP b m`.
-/
import proofs.«161672_j19181323944568_1_alg».proof.Proof.Gen.KernelIdeal.Frame
import proofs.«161672_j19181323944568_1_alg».proof.Proof.Pieces
import proofs.«161672_j19181323944568_1_alg».proof.Proof.Payload
import proofs.«161672_j19181323944568_1_alg».proof.Proof.Distances
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem

namespace Cert.KernelIdeal.KValue

open Cert.KernelIdeal Cert.KernelIdeal.Gen Idealize.ShloMosaic.ValueIdx Cert.MinFold Cert.Chamfer
open Idealize.ShloMosaic.Pipeline (Dat)

variable (m : (ℓ : Loc nD τ sig) → Buf (Elt Ideal) ℓ) (ρ : Dev nD → PrngReg)

/-- The two argument arrays as the region finds them, and the two input blocks of a point, at their literal types. -/
abbrev parr (c : Dev nD) : Cloud := V m c main_arg0
abbrev tarr (c : Dev nD) : Cloud := V m c main_arg1
abbrev pblk (c : Dev nD) (t : Fin cfg0.N) : Vec Ideal S1x3x256 .f32 := iblk m c 0 t
abbrev tblk (c : Dev nD) (t : Fin cfg0.N) : Vec Ideal S1x3x8192 .f32 := iblk m c 1 t

/-- The printed index maps over the grid: batch t / 32, tile t % 32. -/
theorem idx_facts : ∀ t : Fin cfg0.N,
    win0_0.index t (0 : Fin 3) = t.val / 32 ∧ win0_0.index t (1 : Fin 3) = 0 ∧ win0_0.index t (2 : Fin 3) = t.val % 32
    ∧ win0_1.index t (0 : Fin 3) = t.val / 32 ∧ win0_1.index t (1 : Fin 3) = 0 ∧ win0_1.index t (2 : Fin 3) = 0
    ∧ win0_2.index t (0 : Fin 3) = t.val / 32 ∧ win0_2.index t (1 : Fin 3) = t.val % 32 ∧ win0_2.index t (2 : Fin 3) = 0
    ∧ win0_3.index t (0 : Fin 3) = t.val / 32 ∧ win0_3.index t (1 : Fin 3) = 0 ∧ win0_3.index t (2 : Fin 3) = 0 :=
  (by decide +kernel : ∀ t : Fin grid0.N, _)

/-- The batch of a point, and the row of P its tile's k-th point is. -/
def bOf (t : Fin cfg0.N) : Fin 4 := ⟨t.val / 32, by have := t.isLt; have : cfg0.N = 128 := N_0; omega⟩
def rowOf (t : Fin cfg0.N) (k : Fin 256) : Fin 8192 := ⟨256 * (t.val % 32) + k.val, by have := k.isLt; omega⟩

/-- The P block of point t reads P at batch t / 32, rows 256·(t % 32) + k. -/
theorem pblk_apply (c : Dev nD) (t : Fin cfg0.N) (cc : Fin 3) (k : Fin 256) :
    pblk m c t (ix3 (0 : Fin 1) cc k) = parr m c (ix3 (bOf t) cc (rowOf t k)) := by
  obtain ⟨e0, e1, e2, -⟩ := idx_facts t
  show iblk m c 0 t _ = _
  unfold iblk
  rw [View.read_apply]
  show V m c main_arg0 _ = V m c main_arg0 _
  congr 1
  funext a
  apply Fin.ext
  match a with
  | ⟨0, _⟩ => show win0_0.index t (0 : Fin 3) * 1 + 1 * 0 = t.val / 32; omega
  | ⟨1, _⟩ => show win0_0.index t (1 : Fin 3) * 3 + 1 * cc.val = cc.val; omega
  | ⟨2, _⟩ => show win0_0.index t (2 : Fin 3) * 256 + 1 * k.val = 256 * (t.val % 32) + k.val; omega

/-- The T block of point t reads T at batch t / 32, every point. -/
theorem tblk_apply (c : Dev nD) (t : Fin cfg0.N) (cc : Fin 3) (mm : Fin 8192) :
    tblk m c t (ix3 (0 : Fin 1) cc mm) = tarr m c (ix3 (bOf t) cc mm) := by
  obtain ⟨-, -, -, e0, e1, e2, -⟩ := idx_facts t
  show iblk m c 1 t _ = _
  unfold iblk
  rw [View.read_apply]
  show V m c main_arg1 _ = V m c main_arg1 _
  congr 1
  funext a
  apply Fin.ext
  match a with
  | ⟨0, _⟩ => show win0_1.index t (0 : Fin 3) * 1 + 1 * 0 = t.val / 32; omega
  | ⟨1, _⟩ => show win0_1.index t (1 : Fin 3) * 3 + 1 * cc.val = cc.val; omega
  | ⟨2, _⟩ => show win0_1.index t (2 : Fin 3) * 8192 + 1 * mm.val = mm.val; omega

theorem blkPt_p (c : Dev nD) (t : Fin cfg0.N) (k : Fin 256) :
    Payload.blkPt (pblk m c t) k = pt (parr m c) (bOf t) (rowOf t k) := funext fun cc => pblk_apply m c t cc k
theorem blkPt_t (c : Dev nD) (t : Fin cfg0.N) (mm : Fin 8192) :
    Payload.blkPt (tblk m c t) mm = pt (tarr m c) (bOf t) mm := funext fun cc => tblk_apply m c t cc mm

/-! ## The row output -/

/-- Whatever kind of point t is, its row output block is the row payload of its two input blocks. -/
theorem row_at (c : Dev nD) (t : Fin cfg0.N) :
    (outsAt0 m c t.val t.isLt).1 = k0_pay5 (F := Ideal) (pblk m c t) (tblk m c t) := by
  by_cases h0 : t.val % 32 = 0
  · have h1 : ¬t.val % 32 = 31 := by omega
    rw [outsAt0_A m c t h0 h1]
    dsimp only
    exact Pieces.row_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun hh => h1 ((hcond0_1 t).mp hh)) (pblk m c t) (tblk m c t)
  · by_cases h1 : t.val % 32 = 31
    · rw [outsAt0_C m c t h0 h1]
      dsimp only
      exact Pieces.row_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (pblk m c t) (tblk m c t) (outsAt0 m c (t.val - 1) (Nat.lt_of_le_of_lt (Nat.sub_le _ _) t.isLt)).2.2
    · rw [outsAt0_B m c t h0 h1]
      dsimp only
      exact Pieces.row_B (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) (fun hh => h1 ((hcond0_1 t).mp hh)) (pblk m c t) (tblk m c t) (outsAt0 m c (t.val - 1) (Nat.lt_of_le_of_lt (Nat.sub_le _ _) t.isLt)).2.2

/-- The row payload at a block index: the least distance from that row of P to T's points. -/
theorem row_block (c : Dev nD) (t : Fin cfg0.N) (y : S1x256x1.Idx) :
    k0_pay5 (F := Ideal) (pblk m c t) (tblk m c t) y
      = nearestT (parr m c) (tarr m c) (bOf t) (rowOf t ⟨(y 1).val, (y 1).isLt⟩) := by
  obtain ⟨u, k, v, rfl⟩ : ∃ (u : Fin 1) (k : Fin 256) (v : Fin 1), y = ix3 u k v := ⟨y 0, y 1, y 2, eq_ix3 y⟩
  obtain rfl : u = 0 := Subsingleton.elim _ _
  obtain rfl : v = 0 := Subsingleton.elim _ _
  refine (Payload.rowOut_apply _ _ k).trans ?_
  rw [← root_min_sq_eq_nearestT]
  refine congrArg (fun g => root zeroW (Finset.fold min ⊤ g Finset.univ)) (funext fun mm => ?_)
  rw [blkPt_p, blkPt_t]

/-- The row output array after the run. -/
def rowArr (c : Dev nD) : Buf (Elt Ideal) ((c : Thread nD τ).loc main_v0_0) := fun i =>
  nearestT (parr m c) (tarr m c) ⟨(i 0).val, (i 0).isLt⟩ ⟨(i 1).val, (i 1).isLt⟩

/-- Point t writes back its block of it. -/
theorem flushed_row (c : Dev nD) (t : Fin cfg0.N) :
    (dats m 0 c).flushed 2 t = ((cfg0.win 2).blk t).view.read (Elt Ideal) (rowArr m c) := by
  show (cfg0.win 2).cut (grid0.coords t) ((dats m 0 c).after 2 t) = _
  rw [after0_2, row_at]
  obtain ⟨-, -, -, -, -, -, e0, e1, e2, -⟩ := idx_facts t
  funext j
  show k0_pay5 (F := Ideal) (pblk m c t) (tblk m c t) j = rowArr m c (((cfg0.win 2).blk t).view.emb j)
  refine (row_block m c t j).trans ?_
  unfold rowArr
  congr 1
  · apply Fin.ext
    show t.val / 32 = win0_2.index t (0 : Fin 3) * 1 + 1 * (j 0).val
    have : (j 0).val < 1 := (j 0).isLt
    omega
  · apply Fin.ext
    show 256 * (t.val % 32) + (j 1).val = win0_2.index t (1 : Fin 3) * 256 + 1 * (j 1).val
    omega

/-- An index of the row array is in point t's block iff each coordinate is in the block's range. -/
theorem mem_blk_row (t : Fin cfg0.N) (i : S4x8192x1.Idx) :
    i ∈ ((cfg0.win 2).blk t).view.set ↔ ∀ a : Fin 3, win0_2.index t a * S1x256x1.size a ≤ (i a).val ∧ (i a).val < win0_2.index t a * S1x256x1.size a + S1x256x1.size a := by
  show i ∈ ((View.whole main_v0_0).slice (win0_2.rect t)).set ↔ _
  rw [View.set_slice_whole, Rect.mem_set_unit]
  exact Iff.rfl

/-- Every row is some point's. -/
theorem cover_row (i : S4x8192x1.Idx) : ∃ t : Fin cfg0.N, (cfg0.win 2).flush t = true ∧ i ∈ ((cfg0.win 2).blk t).view.set := by
  have h0 : (i 0).val < 4 := (i 0).isLt
  have h1 : (i 1).val < 8192 := (i 1).isLt
  have h2 : (i 2).val < 1 := (i 2).isLt
  have hN : cfg0.N = 128 := N_0
  obtain ⟨t, ht⟩ : ∃ t : Fin cfg0.N, t.val = 32 * (i 0).val + (i 1).val / 256 := ⟨⟨32 * (i 0).val + (i 1).val / 256, by omega⟩, rfl⟩
  obtain ⟨-, -, -, -, -, -, e0, e1, e2, -⟩ := idx_facts t
  refine ⟨t, flush0_2 t, (mem_blk_row t i).mpr fun a => ?_⟩
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1 ≤ (i 2).val ∧ (i 2).val < win0_2.index t (2 : Fin 3) * 1 + 1; omega

/-- The row output array ends holding the least distances from P's points. -/
theorem final_row (c : Dev nD) : (dats m 0 c).arrAt 2 cfg0.N = rowArr m c :=
  (dats m 0 c).arrAt_eq_of_cover 2 (rowArr m c) (fun t _ => flushed_row m c t) cover_row

/-! ## The carried vector -/

/-- Joining a tile's column minima to the least squared distances below the tile gives those below the next tile. -/
theorem tile_step (c : Dev nD) (t : Fin cfg0.N) (mm : Fin 8192) (prev : EReal)
    (hprev : prev = sqBelow (parr m c) (tarr m c) (bOf t) mm (256 * (t.val % 32))) :
    min prev ((Finset.univ : Finset (Fin 256)).fold min ⊤ fun k => sqDist (Payload.blkPt (pblk m c t) k) (Payload.blkPt (tblk m c t) mm))
      = sqBelow (parr m c) (tarr m c) (bOf t) mm (256 * (t.val % 32) + 256) := by
  subst hprev
  have hN : t.val < 128 := lt_of_lt_of_eq t.isLt N_0
  rw [← sqBelow_tile (parr m c) (tarr m c) (bOf t) mm (t.val % 32) (by omega)]
  refine congrArg (fun g => min _ (Finset.fold min ⊤ g Finset.univ)) (funext fun k => ?_)
  rw [blkPt_p, blkPt_t]
  rfl

/-- After point t the carried vector holds, at m, the least squared distance from T's point m to the rows of P (batch
    t / 32) below 256·(t % 32 + 1). -/
theorem acc_inv (c : Dev nD) : ∀ (n : ℕ) (t : Fin cfg0.N), t.val = n → ∀ mm : Fin 8192,
    ((outsAt0 m c t.val t.isLt).2.2 : Vec Ideal S1x8192 .f32) (ix2 (0 : Fin 1) mm)
      = sqBelow (parr m c) (tarr m c) (bOf t) mm (256 * (t.val % 32) + 256) := by
  intro n
  induction n using Nat.strong_induction_on with
  | _ n ih =>
    intro t htn mm
    have hN : t.val < 128 := lt_of_lt_of_eq t.isLt N_0
    by_cases h0 : t.val % 32 = 0
    · have h1 : ¬t.val % 32 = 31 := by omega
      rw [outsAt0_A m c t h0 h1]
      dsimp only
      refine (congrFun (Pieces.acc_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun hh => h1 ((hcond0_1 t).mp hh)) (pblk m c t) (tblk m c t)) (ix2 (0 : Fin 1) mm)).trans ?_
      refine (Payload.acc_apply _ _ _ mm).trans ?_
      rw [Payload.reset_apply]
      refine tile_step m c t mm ⊤ ?_
      rw [h0]
      exact (sqBelow_zero _ _ _ _).symm
    · have hprev : (outsAt0 m c (t.val - 1) (Nat.lt_of_le_of_lt (Nat.sub_le _ _) t.isLt)).2.2 (ix2 (0 : Fin 1) mm) = sqBelow (parr m c) (tarr m c) (bOf t) mm (256 * (t.val % 32)) := by
        have hlt : t.val - 1 < cfg0.N := Nat.lt_of_le_of_lt (Nat.sub_le _ _) t.isLt
        refine (ih (t.val - 1) (by omega) ⟨t.val - 1, hlt⟩ rfl mm).trans ?_
        have eb : bOf ⟨t.val - 1, hlt⟩ = bOf t := Fin.ext (by show (t.val - 1) / 32 = t.val / 32; omega)
        have en : 256 * ((t.val - 1) % 32) + 256 = 256 * (t.val % 32) := by omega
        rw [eb]
        exact congrArg (sqBelow (parr m c) (tarr m c) (bOf t) mm) en
      by_cases h1 : t.val % 32 = 31
      · rw [outsAt0_C m c t h0 h1]
        dsimp only
        refine (congrFun (Pieces.acc_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (pblk m c t) (tblk m c t) (outsAt0 m c (t.val - 1) (Nat.lt_of_le_of_lt (Nat.sub_le _ _) t.isLt)).2.2) (ix2 (0 : Fin 1) mm)).trans ?_
        refine (Payload.acc_apply _ _ _ mm).trans ?_
        exact tile_step m c t mm _ hprev
      · rw [outsAt0_B m c t h0 h1]
        dsimp only
        refine (congrFun (Pieces.acc_B (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) (fun hh => h1 ((hcond0_1 t).mp hh)) (pblk m c t) (tblk m c t) (outsAt0 m c (t.val - 1) (Nat.lt_of_le_of_lt (Nat.sub_le _ _) t.isLt)).2.2) (ix2 (0 : Fin 1) mm)).trans ?_
        refine (Payload.acc_apply _ _ _ mm).trans ?_
        exact tile_step m c t mm _ hprev

/-! ## The column output -/

/-- At the last tile of a batch the column output block is the column payload of the carried vector as the point leaves it. -/
theorem col_at (c : Dev nD) (t : Fin cfg0.N) (h0 : ¬t.val % 32 = 0) (h1 : t.val % 32 = 31) :
    (outsAt0 m c t.val t.isLt).2.1 = k0_pay2 (F := Ideal) (outsAt0 m c t.val t.isLt).2.2 := by
  rw [outsAt0_C m c t h0 h1]
  dsimp only
  rw [Pieces.col_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (pblk m c t) (tblk m c t) (outsAt0 m c (t.val - 1) (Nat.lt_of_le_of_lt (Nat.sub_le _ _) t.isLt)).2.2,
    Pieces.acc_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (pblk m c t) (tblk m c t) (outsAt0 m c (t.val - 1) (Nat.lt_of_le_of_lt (Nat.sub_le _ _) t.isLt)).2.2]

/-- The column payload at a block index, at the last tile: the least distance from that point of T to P's points. -/
theorem col_block (c : Dev nD) (t : Fin cfg0.N) (h1 : t.val % 32 = 31) (y : S1x1x8192.Idx) :
    k0_pay2 (F := Ideal) (outsAt0 m c t.val t.isLt).2.2 y
      = nearestP (parr m c) (tarr m c) (bOf t) ⟨(y 2).val, (y 2).isLt⟩ := by
  obtain ⟨u, v, mm, rfl⟩ : ∃ (u : Fin 1) (v : Fin 1) (mm : Fin 8192), y = ix3 u v mm := ⟨y 0, y 1, y 2, eq_ix3 y⟩
  obtain rfl : u = 0 := Subsingleton.elim _ _
  obtain rfl : v = 0 := Subsingleton.elim _ _
  refine (Payload.colOut_apply _ mm).trans ?_
  rw [acc_inv m c t.val t rfl mm, h1]
  exact root_sqBelow_all _ _ _ _

/-- The column output array after the run. -/
def colArr (c : Dev nD) : Buf (Elt Ideal) ((c : Thread nD τ).loc main_v0_1) := fun i =>
  nearestP (parr m c) (tarr m c) ⟨(i 0).val, (i 0).isLt⟩ ⟨(i 2).val, (i 2).isLt⟩

/-- A point that writes the column output back (the last tile of a batch) writes its block of it. -/
theorem flushed_col (c : Dev nD) (t : Fin cfg0.N) (hf : (cfg0.win 3).flush t = true) :
    (dats m 0 c).flushed 3 t = ((cfg0.win 3).blk t).view.read (Elt Ideal) (colArr m c) := by
  have h1 : t.val % 32 = 31 := (flush0_3 t).mp hf
  have h0 : ¬t.val % 32 = 0 := by omega
  show (cfg0.win 3).cut (grid0.coords t) ((dats m 0 c).after 3 t) = _
  rw [after0_3, col_at m c t h0 h1]
  obtain ⟨-, -, -, -, -, -, -, -, -, e0, e1, e2⟩ := idx_facts t
  funext j
  show k0_pay2 (F := Ideal) (outsAt0 m c t.val t.isLt).2.2 j = colArr m c (((cfg0.win 3).blk t).view.emb j)
  refine (col_block m c t h1 j).trans ?_
  unfold colArr
  congr 1
  · apply Fin.ext
    show t.val / 32 = win0_3.index t (0 : Fin 3) * 1 + 1 * (j 0).val
    have : (j 0).val < 1 := (j 0).isLt
    omega
  · apply Fin.ext
    show (j 2).val = win0_3.index t (2 : Fin 3) * 8192 + 1 * (j 2).val
    omega

theorem mem_blk_col (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Every entry of the column array is in the block of its batch's last tile, which is written back. -/
theorem cover_col (i : S4x1x8192.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  have hN : cfg0.N = 128 := N_0
  obtain ⟨t, ht⟩ : ∃ t : Fin cfg0.N, t.val = 32 * (i 0).val + 31 := ⟨⟨32 * (i 0).val + 31, by omega⟩, rfl⟩
  obtain ⟨-, -, -, -, -, -, -, -, -, e0, e1, e2⟩ := idx_facts t
  refine ⟨t, (flush0_3 t).mpr (by omega), (mem_blk_col t i).mpr fun a => ?_⟩
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-- The column output array ends holding the least distances from T's points. -/
theorem final_col (c : Dev nD) : (dats m 0 c).arrAt 3 cfg0.N = colArr m c :=
  (dats m 0 c).arrAt_eq_of_cover 3 (colArr m c) (flushed_col m c) cover_col

end Cert.KernelIdeal.KValue

end
-- ==== Proof.KernelRun.lean ====
/-
  The kernel program's run at the ideal values, read: after the region the host drops the unit axis of each result
  array, takes each array's mean, and adds the two. With the arrays at the least distances (KernelValue.lean), the
  result buffer ends at the chamfer distance of Distances.lean.
-/
import proofs.«161672_j19181323944568_1_alg».proof.Proof.KernelValue
import Idealize.ShloMosaic.Lib.StableHlo.Run
import Idealize.ShloMosaic.Lib.ValueLayout

noncomputable section

open Idealize.ShloMosaic Idealize.ShloMosaic.TcCoe Idealize.SL.Sem

namespace Cert.KernelIdeal.KRun

open Cert.KernelIdeal Cert.KernelIdeal.Gen Idealize.ShloMosaic.ValueIdx Cert.MinFold Cert.Chamfer Cert.KernelIdeal.KValue
open Idealize.ShloMosaic.Pipeline (Dat)

variable (m : (ℓ : Loc nD τ sig) → Buf (Elt Ideal) ℓ) (ρ : Dev nD → PrngReg)

/-- The row array with its unit axis dropped is the [4, 8192] array of least distances from P's points. -/
theorem reshape_row (c : Dev nD) (h : S4x8192x1.ShapeCasts S4x8192) :
    shapeCast S4x8192 (rowArr m c) h = rowsOf (parr m c) (tarr m c) := by
  funext j
  obtain ⟨b, r, rfl⟩ : ∃ (b : Fin 4) (r : Fin 8192), j = ix2 b r := ⟨j 0, j 1, eq_ix2 j⟩
  refine (shapeCast_apply (s := S4x8192x1) (t := S4x8192) (rowArr m c) h (ix2 b r) (ix3 b r (0 : Fin 1)) ?_).trans rfl
  show ((⟨3, ![4, 8192, 1]⟩ : Shape).rowMajor (ix3 b r (0 : Fin 1))).val = ((⟨2, ![4, 8192]⟩ : Shape).rowMajor (ix2 b r)).val
  rw [Shape.rowMajor_val_three, Shape.rowMajor_val_two]
  show (b.val * 8192 + r.val) * 1 + 0 = b.val * 8192 + r.val
  omega

/-- The column array with its unit axis dropped is the [4, 8192] array of least distances from T's points. -/
theorem reshape_col (c : Dev nD) (h : S4x1x8192.ShapeCasts S4x8192) :
    shapeCast S4x8192 (colArr m c) h = colsOf (parr m c) (tarr m c) := by
  funext j
  obtain ⟨b, mm, rfl⟩ : ∃ (b : Fin 4) (mm : Fin 8192), j = ix2 b mm := ⟨j 0, j 1, eq_ix2 j⟩
  refine (shapeCast_apply (s := S4x1x8192) (t := S4x8192) (colArr m c) h (ix2 b mm) (ix3 b (0 : Fin 1) mm) ?_).trans rfl
  show ((⟨3, ![4, 1, 8192]⟩ : Shape).rowMajor (ix3 b (0 : Fin 1) mm)).val = ((⟨2, ![4, 8192]⟩ : Shape).rowMajor (ix2 b mm)).val
  rw [Shape.rowMajor_val_three, Shape.rowMajor_val_two]
  show (b.val * 1 + 0) * 8192 + mm.val = b.val * 8192 + mm.val
  omega

/-- The result buffer after the host lines that follow the region. -/
theorem result_eq (c : Dev nD) :
    Pipeline.afterTail₀ cfgs (dats m) 0 (V0 m) [hostOps1] c main_v7
      = meanSum reducesTo_S4x8192_S_d0_1 h_S_ (rowsOf (parr m c) (tarr m c)) (colsOf (parr m c) (tarr m c)) := by
  unfold Pipeline.afterTail₀
  show StableHlo.after hostOps1 _ (Proc.devRef .tc main_v7) = _
  after_results
  have er : Pipeline.withArrays (cfgs 0).spec c (V0 m c) (fun w => (dats m 0 c).arrAt w (cfgs 0).N) (Proc.devRef .tc main_v0_0) = rowArr m c :=
    (Pipeline.withArrays_arr spec0 launch0.win.arr_inj c _ _ 2).trans (final_row m c)
  have ec : Pipeline.withArrays (cfgs 0).spec c (V0 m c) (fun w => (dats m 0 c).arrAt w (cfgs 0).N) (Proc.devRef .tc main_v0_1) = colArr m c :=
    (Pipeline.withArrays_arr spec0 launch0.win.arr_inj c _ _ 3).trans (final_col m c)
  rw [er, ec]
  unfold meanSum
  refine congrArg₂ (fun R C : FVec Ideal S4x8192 .f32 =>
    addf (Host.divf (F := Ideal) (Host.reduceAdd (F := Ideal) R (constant (F := Ideal) S_ .f32 0x00000000#32) reducesTo_S4x8192_S_d0_1 h_S_) (constant (F := Ideal) S_ .f32 0x47000000#32))
      (Host.divf (F := Ideal) (Host.reduceAdd (F := Ideal) C (constant (F := Ideal) S_ .f32 0x00000000#32) reducesTo_S4x8192_S_d0_1 h_S_) (constant (F := Ideal) S_ .f32 0x47000000#32))) ?_ ?_
  · funext i
    exact congrFun (reshape_row m c _) i
  · funext i
    exact congrFun (reshape_col m c _) i

/-- The run, read: the result buffer at the chamfer distance of the two argument arrays, the arguments unchanged. -/
theorem run : θ_run defs (onTc (τ := τ) (main (F := Ideal))) ⟨m, fun _ => 0, ρ⟩ fun r => ∀ c : Dev nD,
      r.2.mem ((c.tc : Thread nD τ).loc main_v7)
        = meanSum reducesTo_S4x8192_S_d0_1 h_S_
            (rowsOf (m ((c.tc : Thread nD τ).loc main_arg0)) (m ((c.tc : Thread nD τ).loc main_arg1)))
            (colsOf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v7 (Pipeline.mem_restRefs_of main_v7 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KRun

end
-- ==== Proof.RefValue.lean ====
/-
  The reference at the ideal values: what it computes is the chamfer distance of Distances.lean.

  It forms the whole [4, 8192, 8192] array of distances (the squared distance of every pair, clamped and rooted),
  takes its minimum along either point axis, and ends with the two means and their sum. Read index by index: the
  distance array at (b, r, m) is `dist (pt P b r) (pt T b m)`, the two minima are `nearestT` and `nearestP`.
-/
import proofs.«161672_j19181323944568_1_alg».proof.Proof.Gen.ReferenceIdeal.Read
import proofs.«161672_j19181323944568_1_alg».proof.Proof.Distances
import Idealize.ShloMosaic.Lib.ValueIdx
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.MinFold Cert.Chamfer

/-- Reducing the last axis of `[a, b, c]`: the reduced index `(p, q)` with `k` put back is `(p, q, k)`. -/
theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- Reducing the middle axis of `[a, b, c]`: the reduced index `(p, q)` with `k` put back is `(p, k, q)`. -/
theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

/-- The distance array at (b, r, m). -/
theorem dist_apply (P T : (⟨S4x3x8192, .f32⟩ : BufTy).Contents (Elt Ideal)) (b : Fin 4) (r m : Fin 8192) :
    val_main_v17 (F := Ideal) P T (ix3 b r m) = dist (pt P b r) (pt T b m) := by
  have e1 : ∀ k : Fin 3, idx_main_v0 (idx_main_v3 (idx_main_v7 (idx_main_v9 (ix3 b r m))) k) = ix3 b k r := fun k =>
    funext fun a => Fin.ext (by match a with | ⟨0, _⟩ => rfl | ⟨1, _⟩ => rfl | ⟨2, _⟩ => rfl)
  have e2 : ∀ k : Fin 3, idx_main_v1 (idx_main_v5 (idx_main_v8 (idx_main_v10 (ix3 b r m))) k) = ix3 b k m := fun k =>
    funext fun a => Fin.ext (by match a with | ⟨0, _⟩ => rfl | ⟨1, _⟩ => rfl | ⟨2, _⟩ => rfl)
  have e3 : ∀ k : Fin 3, idx_main_v0 (lidx_main_v6 (ix3 b r m) k) = ix3 b k r := fun k =>
    funext fun a => Fin.ext (by match a with | ⟨0, _⟩ => rfl | ⟨1, _⟩ => rfl | ⟨2, _⟩ => rfl)
  have e4 : ∀ k : Fin 3, idx_main_v1 (ridx_main_v6 (ix3 b r m) k) = ix3 b k m := fun k =>
    funext fun a => Fin.ext (by match a with | ⟨0, _⟩ => rfl | ⟨1, _⟩ => rfl | ⟨2, _⟩ => rfl)
  rw [val_main_v17_apply, val_main_v16_apply, val_main_v14_apply, val_main_v11_apply, val_main_v9_apply, val_main_v7_apply,
    val_main_v3_apply, val_main_v10_apply, val_main_v8_apply, val_main_v5_apply, val_main_v13_apply, val_main_v12_apply,
    val_main_v6_apply, val_main_v15_apply]
  simp only [val_main_v2_apply, val_main_v4_apply, val_main_v0_apply, val_main_v1_apply, val_main_cst_apply, val_main_cst_0_apply,
    val_main_cst_1_apply, val_main_cst_2_apply, e1, e2, e3, e4, Ideal.hostUnary_sqrt_def, Ideal.maximumf_def, Ideal.subf_def,
    Ideal.addf_def, Ideal.mulf_def, Ideal.ofBits_def, Ideal.ofBits_zero_f32, zero_add]
  show _ = Ideal.sqrt (max (((∑ c : Fin 3, P (ix3 b c r) * P (ix3 b c r)) + (∑ c : Fin 3, T (ix3 b c m) * T (ix3 b c m)))
    - Ideal.ofBits .f32 0x40000000#32 * (∑ c : Fin 3, P (ix3 b c r) * T (ix3 b c m))) (Ideal.ofBits .f32 0x00000000#32))
  rw [Ideal.ofBits_zero_f32]

/-- The minimum along T's axis: the least distance from each point of P. -/
theorem rows_eq (P T : (⟨S4x3x8192, .f32⟩ : BufTy).Contents (Elt Ideal)) : val_main_v18 (F := Ideal) P T = rowsOf P T := by
  funext j
  obtain ⟨b, r, rfl⟩ : ∃ (b : Fin 4) (r : Fin 8192), j = ix2 b r := ⟨j 0, j 1, eq_ix2 j⟩
  unfold val_main_v18 val_main_cst_3
  refine (hostReduce_minimumf_single _ reducesTo_S4x8192x8192_S4x8192_d2 (by decide) h_S_ (ix2 b r)).trans ?_
  show _ = nearestT P T b r
  unfold nearestT
  refine congrArg (fun g => Finset.fold min ⊤ g Finset.univ) (funext fun m => ?_)
  rw [lift_last _ b r m]
  exact dist_apply P T b r _

/-- The minimum along P's axis: the least distance from each point of T. -/
theorem cols_eq (P T : (⟨S4x3x8192, .f32⟩ : BufTy).Contents (Elt Ideal)) : val_main_v21 (F := Ideal) P T = colsOf P T := by
  funext j
  obtain ⟨b, m, rfl⟩ : ∃ (b : Fin 4) (m : Fin 8192), j = ix2 b m := ⟨j 0, j 1, eq_ix2 j⟩
  unfold val_main_v21 val_main_cst_6
  refine (hostReduce_minimumf_single _ reducesTo_S4x8192x8192_S4x8192_d1 (by decide) h_S_ (ix2 b m)).trans ?_
  show _ = nearestP P T b m
  unfold nearestP
  refine congrArg (fun g => Finset.fold min ⊤ g Finset.univ) (funext fun r => ?_)
  rw [lift_mid _ b m r]
  exact dist_apply P T b _ m

/-- The reference's result: the two means of the least distances, summed. -/
theorem result_eq (P T : (⟨S4x3x8192, .f32⟩ : BufTy).Contents (Elt Ideal)) :
    val_main_v24 (F := Ideal) P T = meanSum reducesTo_S4x8192_S_d0_1 h_S_ (rowsOf P T) (colsOf P T) := by
  rw [← rows_eq, ← cols_eq]
  rfl

end Cert.ReferenceIdeal.RefValue

end
-- ==== Proof.lean ====
/-
  Chamfer distance between two clouds of 8192 points, four batches: the tiled kernel against the whole-array
  reference, over the extended reals.

  Both programs spell the squared distance of two points as |p|² + |q|² − 2 p·q and the distance as its clamp at zero,
  rooted; both end with the mean over P's points of the least distance to T, plus the mean over T's points of the
  least distance to P. They differ in two ways. The reference roots every one of the 4·8192·8192 squared distances and
  then takes minima; the kernel takes the minima of the squared distances and roots only those — equal because the
  clamped root is monotone on the extended reals and fixes +∞, so it commutes with a minimum taken from +∞. And the
  kernel takes the minimum over P's points tile by tile (32 tiles of 256), carrying the running minimum from one grid
  point to the next — equal because a minimum over a union of tiles is the minimum of the tiles' minima. No finiteness
  of the inputs is used: the sums and products are the same terms on both sides.

  Frames: the two kernel programs' are the generated ones; the reference's is its generated run with the result dropped.
  The idealization rewrote nothing.
-/
import proofs.«161672_j19181323944568_1_alg».proof.Defs
import proofs.«161672_j19181323944568_1_alg».proof.Proof.Gen.Kernel
import proofs.«161672_j19181323944568_1_alg».proof.Proof.Gen.Kernel.Frame
import proofs.«161672_j19181323944568_1_alg».proof.Proof.Gen.KernelIdeal
import proofs.«161672_j19181323944568_1_alg».proof.Proof.Gen.KernelIdeal.Frame
import proofs.«161672_j19181323944568_1_alg».proof.Proof.Gen.ReferenceIdeal
import proofs.«161672_j19181323944568_1_alg».proof.Proof.Gen.ReferenceIdeal.Run
import proofs.«161672_j19181323944568_1_alg».proof.Proof.Gen.ReferenceIdeal.Read
import proofs.«161672_j19181323944568_1_alg».proof.Proof.Gen.Pre_finite_inputs
import proofs.«161672_j19181323944568_1_alg».proof.Proof.KernelRun
import proofs.«161672_j19181323944568_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel's result buffer ends at the two means of the least distances, summed (KernelRun.lean),
    and so does the reference's (RefValue.lean), of argument arrays that agree. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
